-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.Spec.lean ====
/-
  The specification: a radial-basis layer over the extended reals.

  For inputs `x : [16384, 1024]`, centres `c : [4096, 1024]` and widths `β : [4096]`, entry `(n, o)` of the result is

      exp ( (−β o) · √ max ( (‖x n‖² + ‖c o‖²) − 2 · ⟨x n, c o⟩ , 0 ) )

  where `‖x n‖² = Σ k, x (n, k)²`, `‖c o‖² = Σ k, c (o, k)²` and `⟨x n, c o⟩ = Σ k, x (n, k) · c (o, k)`, all three sums over
  the 1024 features. The bracket is the squared distance `‖x n − c o‖²` written by the expansion of the square; it is kept
  in that expanded form, the additions and the subtraction in this order, because both programs compute it so and on
  the extended reals a regrouping would need finiteness. The two literals are kept as their words: `0x40000000` is 2 and
  `0x00000000` is 0, and the same word stands on both sides, so neither is ever evaluated here.
-/
import Idealize.ShloMosaic.PureOps.Ideal
import Idealize.ShloMosaic.Lib.ValueIdx

noncomputable section

namespace Cert.Rbf

open Idealize.ShloMosaic Idealize.ShloMosaic.ValueIdx

/-- The squared Euclidean norm of row `p` of a matrix: the sum over its columns of the entry squared. -/
def sqNorm {a K : ℕ} (x : FVec Ideal ⟨2, ![a, K]⟩ .f32) (p : Fin a) : EReal :=
  ∑ k : Fin K, x (ix2 p k) * x (ix2 p k)

/-- The inner product of row `p` of `x` with row `q` of `c`. -/
def inner {a b K : ℕ} (x : FVec Ideal ⟨2, ![a, K]⟩ .f32) (c : FVec Ideal ⟨2, ![b, K]⟩ .f32) (p : Fin a) (q : Fin b) : EReal :=
  ∑ k : Fin K, x (ix2 p k) * c (ix2 q k)

/-- One entry from its four ingredients: `exp (w · √ max ((xs + cs) − 2 · xc, 0))`, with `w` the negated width. -/
def entry (xs cs xc w : EReal) : EReal :=
  Ideal.exp (w * Ideal.sqrt (max (xs + cs - Ideal.ofBits .f32 0x40000000#32 * xc) (Ideal.ofBits .f32 0x00000000#32)))

/-- The whole result, index by index. -/
def rbf (x : FVec Ideal ⟨2, ![16384, 1024]⟩ .f32) (c : FVec Ideal ⟨2, ![4096, 1024]⟩ .f32) (β : FVec Ideal ⟨1, ![4096]⟩ .f32) :
    FVec Ideal ⟨2, ![16384, 4096]⟩ .f32 :=
  fun i => entry (sqNorm x (i 0)) (sqNorm c (i 1)) (inner x c (i 0) (i 1)) (-(β (ix1 (i 1))))

/-- The result at explicit coordinates. -/
theorem rbf_apply (x : FVec Ideal ⟨2, ![16384, 1024]⟩ .f32) (c : FVec Ideal ⟨2, ![4096, 1024]⟩ .f32) (β : FVec Ideal ⟨1, ![4096]⟩ .f32)
    (n : Fin 16384) (o : Fin 4096) :
    rbf x c β (ix2 n o) = entry (sqNorm x n) (sqNorm c o) (inner x c n o) (-(β (ix1 o))) := rfl

end Cert.Rbf

end
-- ==== Proof.RefIsSpec.lean ====
/-
  The reference computes the specification.

  Read one operation at a time, entry `(n, o)` of the reference's result is `exp` of the product of the negated width
  `−β o` (the width row broadcast over the rows, then negated) with the square root of `max (·, 0)` of

      (0 + Σ k, x (n, k)²)  +  (0 + Σ k, c (o, k)²)  −  2 · Σ k, x (n, k) · cᵀ (k, o),

  the two squared norms by a reduction along the feature axis that starts from the constant zero, the inner products
  by one matrix product of `x` with the transposed centres. The leading zeros add nothing, and `cᵀ (k, o) = c (o, k)`,
  so this is the specification's entry.
-/
import proofs.«113604_j56298431316600_1_alg».proof.Proof.Gen.ReferenceIdeal.Read
import proofs.«113604_j56298431316600_1_alg».proof.Proof.Spec

noncomputable section

namespace Cert.Rbf.Ref

open Cert.ReferenceIdeal Cert.ReferenceIdeal.Gen Cert.ReferenceIdeal.Read Idealize.ShloMosaic Idealize.ShloMosaic.ValueIdx

/-! ## Where each operand is read: the composed index maps at `(n, o)` -/

/-- Row `n`'s squared norm reaches entry `(n, o)` through a column and a broadcast: it sums `x` along row `n`. -/
theorem at_x (n : Fin 16384) (o : Fin 4096) (k : Fin 1024) :
    idx_main_v1 (idx_main_v2 (idx_main_v8 (ix2 n o))) k = ix2 n k :=
  funext fun a => Fin.ext (by match a with | ⟨0, _⟩ => rfl | ⟨1, _⟩ => rfl)

/-- Centre `o`'s squared norm reaches entry `(n, o)` through a row and a broadcast: it sums `c` along row `o`. -/
theorem at_c (n : Fin 16384) (o : Fin 4096) (k : Fin 1024) :
    idx_main_v4 (idx_main_v7 (idx_main_v9 (ix2 n o))) k = ix2 o k :=
  funext fun a => Fin.ext (by match a with | ⟨0, _⟩ => rfl | ⟨1, _⟩ => rfl)

/-- The product's left factor at `(n, o)` and contraction position `k` is `x (n, k)`. -/
theorem at_l (n : Fin 16384) (o : Fin 4096) (k : Fin 1024) : lidx_main_v6 (ix2 n o) k = ix2 n k :=
  funext fun a => Fin.ext (by match a with | ⟨0, _⟩ => rfl | ⟨1, _⟩ => rfl)

/-- Its right factor is the transposed centres at `(k, o)`, that is `c (o, k)`. -/
theorem at_r (n : Fin 16384) (o : Fin 4096) (k : Fin 1024) : idx_main_v5 (ridx_main_v6 (ix2 n o) k) = ix2 o k :=
  funext fun a => Fin.ext (by match a with | ⟨0, _⟩ => rfl | ⟨1, _⟩ => rfl)

/-- The width read at `(n, o)` is `β o`. -/
theorem at_b (n : Fin 16384) (o : Fin 4096) : idx_main_v17 (idx_main_v19 (ix2 n o)) = ix1 o :=
  funext fun a => Fin.ext (by match a with | ⟨0, _⟩ => rfl)

/-! ## The reference's last stage is the specification -/

theorem ref_eq (x0 : (⟨S16384x1024, .f32⟩ : BufTy).Contents (Elt Ideal)) (x1 : (⟨S4096x1024, .f32⟩ : BufTy).Contents (Elt Ideal))
    (x2 : (⟨S4096, .f32⟩ : BufTy).Contents (Elt Ideal)) :
    val_main_v21 (F := Ideal) x0 x1 x2 = Cert.Rbf.rbf x0 x1 x2 := by
  funext i
  obtain ⟨n, o, rfl⟩ : ∃ (n : Fin 16384) (o : Fin 4096), i = ix2 n o := ⟨i 0, i 1, eq_ix2 i⟩
  rw [Cert.Rbf.rbf_apply]
  simp only [val_main_v21_apply, val_main_v20_apply, val_main_v19_apply, val_main_v18_apply, val_main_v17_apply,
    val_main_v16_apply, val_main_v15_apply, val_main_v14_apply, val_main_cst_2_apply, val_main_v13_apply,
    val_main_v12_apply, val_main_v11_apply, val_main_cst_1_apply, val_main_v10_apply, val_main_v9_apply,
    val_main_v8_apply, val_main_v7_apply, val_main_v6_apply, val_main_v5_apply, val_main_v4_apply, val_main_cst_0_apply,
    val_main_v3_apply, val_main_v2_apply, val_main_v1_apply, val_main_cst_apply, val_main_v0_apply,
    at_x, at_c, at_l, at_r, at_b,
    Ideal.hostUnary_exp_def, Ideal.hostUnary_sqrt_def, Ideal.mulf_def, Ideal.subf_def, Ideal.addf_def,
    Ideal.maximumf_def, Ideal.hostNegf_def, Ideal.negf_def, Ideal.ofBits_def,
    Cert.Rbf.entry, Cert.Rbf.sqNorm, Cert.Rbf.inner, Ideal.ofBits_zero_f32, zero_add]

end Cert.Rbf.Ref

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.LibDotRows.lean ====
/-
  General lemmas, at the ideal instance, read at an index.

  * A matrix product that contracts the COLUMNS of both operands, `[M,K]·[N,K]ᵀ`, into a zero accumulator: at `(p, c)`
    it is `Σ k, lhs (p, k) · rhs (c, k)` — row `p` of the left operand against row `c` of the right one.
  * A column `[b,1]` transposed to the row `[1,b]` reads, at `(0, q)`, the column's entry `q`.
  * The lane sums of a `[b,K]` vector, kept as a column, transposed to a row and spread over `[a,b]`: at `(p, q)`
    the sum of row `q` of the source, whatever `p`.
-/
import Idealize.ShloMosaic.PureOps.Ideal.Laws
import Idealize.ShloMosaic.Lib.ValueIdx
import Idealize.ShloMosaic.Lib.ValueLayout
import Idealize.ShloMosaic.Lib.Pipeline.Value
import proofs.«113604_j56298431316600_1_alg».proof.Proof.LibRowOps

noncomputable section

namespace Cert.DotRows

open Idealize.ShloMosaic Idealize.ShloMosaic.ValueIdx

variable {α : Type}

/-- A product `[M,K]·[N,K]ᵀ` (the columns of both operands contracted) into the zero accumulator, read at `(p, c)`:
    the sum over `k` of `lhs (p, k) · rhs (c, k)`. -/
theorem matmul_rows_apply {M K N : ℕ} {φ₁ φ₂ : FTy}
    (wf : DotDims.WF ⟨2, ![M, K]⟩ ⟨2, ![N, K]⟩ ⟨2, ![M, N]⟩ [1] [1] [0] [0] [] [])
    (prec : Option ContractPrecision) (lhs : FVec Ideal ⟨2, ![M, K]⟩ φ₁) (rhs : FVec Ideal ⟨2, ![N, K]⟩ φ₂)
    (p : Fin M) (c : Fin N) :
    FloatOps.matmul (⟨[1], [1], [0], [0], [], [], wf⟩ : DotDims ⟨2, ![M, K]⟩ ⟨2, ![N, K]⟩ ⟨2, ![M, N]⟩) prec lhs rhs
        (constant ⟨2, ![M, N]⟩ .f32 0x00000000#32) (ix2 p c)
      = ∑ k : Fin K, lhs (ix2 p k) * rhs (ix2 c k) := by
  set D : DotDims ⟨2, ![M, K]⟩ ⟨2, ![N, K]⟩ ⟨2, ![M, N]⟩ := ⟨[1], [1], [0], [0], [], [], wf⟩ with hD
  -- the left operand's row is the output's row; its column is the contraction position
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  -- the right operand's row is the output's COLUMN; its column is the contraction position
  have r0 : ∀ (i : (⟨2, ![M, N]⟩ : Shape).Idx) (q : D.contr.Idx), (D.rhsIdx i q 0).val = (i 1).val := by
    intro i q
    unfold DotDims.rhsIdx
    rw [dif_neg (show ¬(0 : Fin 2) ∈ D.rhsBatch from List.not_mem_nil), dif_pos (show (0 : Fin 2) ∈ D.rhsNonContracting from List.mem_singleton.mpr rfl)]
    rfl
  have r1 : ∀ (i : (⟨2, ![M, N]⟩ : Shape).Idx) (q : D.contr.Idx), (D.rhsIdx i q 1).val = (q ⟨0, Nat.one_pos⟩).val :=
    fun i q => D.rhsIdx_val_of_single rfl i q
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 c k := funext fun ax => Fin.ext (by
    match ax with
    | ⟨0, _⟩ => exact r0 _ _
    | ⟨1, _⟩ => exact (r1 _ _).trans hk)
  rw [el, er]

/-- A column `[b, 1]` transposed to the row `[1, b]` reads, at `(u, q)`, the column's entry `q`. -/
theorem transpose_b1_1b_apply {b : ℕ} (v : (⟨2, ![b, 1]⟩ : Shape).Idx → α)
    (h : (⟨2, ![b, 1]⟩ : Shape).Transposes [1, 0] ⟨2, ![1, b]⟩) (u : Fin 1) (q : Fin b) :
    transpose ⟨2, ![1, b]⟩ [1, 0] v h (ix2 u q) = v (ix2 q u) :=
  transpose_ix2_apply v h u q

/-- The lane sums of a `[b, K]` vector kept as the column `[b, 1]`, transposed to the row `[1, b]` and spread over
    `[a, b]`: at `(p, q)` the sum of row `q` of the source. -/
theorem rowSum_asRow_spread_apply {a b K : ℕ} {φ : FTy} (src : FVec Ideal ⟨2, ![b, K]⟩ φ) (acc : BitVec φ.bits)
    (h : (⟨2, ![b, K]⟩ : Shape).Reduces [1] ⟨1, ![b]⟩) (hφ : FKind.Formats φ) (hacc : acc = FKind.add.neutral φ hφ)
    (hs : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (p : Fin a) (q : Fin b) :
    broadcastTo ⟨2, ![a, b]⟩ (transpose ⟨2, ![1, b]⟩ [1, 0]
        (shapeCast ⟨2, ![b, 1]⟩ (multiReduction .add [1] ⟨1, ![b]⟩ src acc h hφ hacc) hs) ht) hb (ix2 p q)
      = ∑ k : Fin K, src (ix2 q k) := by
  rw [broadcastTo_1b_ab_apply, transpose_b1_1b_apply, Cert.RowOps.shapeCast_a_a1_apply, Cert.RowOps.laneSum_apply]

end Cert.DotRows

end
-- ==== Proof.Payload.lean ====
/-
  What the kernel body stores, entry by entry.

  At a grid point the body holds a block `xb : [1024, 1024]` of inputs, a block `cb : [512, 1024]` of centres and a
  block `bb : [1, 512]` of the width row, and stores one `[1024, 512]` block. Its entry `(p, q)` is

      exp ( (0 − bb (0, q)) · √ max ( (Σ k, xb (p, k)²  +  Σ k, cb (q, k)²) − 2 · Σ k, xb (p, k) · cb (q, k) , 0 ) ):

  the row sums of `xb²` are kept as a column and spread along the rows; the row sums of `cb²` are kept as a column,
  transposed to a row and spread down the columns; the inner products are one matrix product that contracts the feature
  axis of both blocks (the narrowing of its operands to a shorter float format is the identity on the extended
  reals); the width row is negated as `0 − ·` and spread down the columns. That is the specification's entry of the
  block's ingredients, with `0 − w = −w`.
-/
import proofs.«113604_j56298431316600_1_alg».proof.Proof.Gen.KernelIdeal.Skeleton
import proofs.«113604_j56298431316600_1_alg».proof.Proof.LibDotRows
import proofs.«113604_j56298431316600_1_alg».proof.Proof.Spec

noncomputable section

namespace Cert.Rbf.Body

open Cert.KernelIdeal Cert.KernelIdeal.Gen Idealize.ShloMosaic Idealize.ShloMosaic.ValueIdx

/-! ## The four ingredients of an entry, as the body spells them -/

/-- The row sums of the squared input block, kept as a column and spread along the rows: at `(p, q)` the squared norm
    of row `p`. -/
theorem xsq_apply (xb : Vec Ideal S1024x1024 .f32) (p : Fin 1024) (q : Fin 512) :
    broadcastTo S1024x512 (shapeCast S1024x1 (multiReduction (F := Ideal) .add [1] S1024 (mulf xb xb) 0x00000000#32
        reduces_S1024x1024_S1024 (.inl rfl) rfl) shapeCasts_S1024_S1024x1) broadcasts_S1024x1_S1024x512 (ix2 p q)
      = Cert.Rbf.sqNorm xb p :=
  Cert.RowOps.rowSum_spread_apply (mulf xb xb) _ _ _ _ _ _ p q

/-- The row sums of the squared centre block, kept as a column, transposed to a row and spread down the columns: at
    `(p, q)` the squared norm of row `q`. -/
theorem csq_apply (cb : Vec Ideal S512x1024 .f32) (p : Fin 1024) (q : Fin 512) :
    broadcastTo S1024x512 (transpose S1x512 [1, 0] (shapeCast S512x1 (multiReduction (F := Ideal) .add [1] S512 (mulf cb cb) 0x00000000#32
        reduces_S512x1024_S512 (.inl rfl) rfl) shapeCasts_S512_S512x1) transposes_S512x1_p1_0_S1x512)
        broadcasts_S1x512_S1024x512 (ix2 p q)
      = Cert.Rbf.sqNorm cb q :=
  Cert.DotRows.rowSum_asRow_spread_apply (mulf cb cb) _ _ _ _ _ _ _ p q

/-- The product contracts the feature axis of both blocks, and the narrowing of its operands is the identity: at
    `(p, q)` the inner product of row `p` of the inputs with row `q` of the centres. -/
theorem cross_apply (xb : Vec Ideal S1024x1024 .f32) (cb : Vec Ideal S512x1024 .f32) (p : Fin 1024) (q : Fin 512) :
    FloatOps.matmul dot_S1024x1024_S512x1024_S1024x512_1_1_0_0_n_n none (truncf .bf16 xb bitsLt_bf16_f32 : FVec Ideal S1024x1024 .bf16)
        (truncf .bf16 cb bitsLt_bf16_f32 : FVec Ideal S512x1024 .bf16) (constant S1024x512 .f32 0x00000000#32) (ix2 p q)
      = Cert.Rbf.inner xb cb p q :=
  Cert.DotRows.matmul_rows_apply dot_S1024x1024_S512x1024_S1024x512_1_1_0_0_n_n_wf none _ _ p q

/-- The width row negated as `0 − ·` and spread down the columns: at `(p, q)` it is `−(bb (0, q))`. -/
theorem negWidth_apply (bb : Vec Ideal S1x512 .f32) (p : Fin 1024) (q : Fin 512) :
    broadcastTo S1024x512 (subf (broadcast S1x512 (FloatOps.ofBits (F := Ideal) .f32 0x00000000#32))
        (shapeCast S1x512 bb shapeCasts_S1x512_S1x512)) broadcasts_S1x512_S1024x512 (ix2 p q)
      = -(bb (ix2 (0 : Fin 1) q)) := by
  rw [broadcastTo_1b_ab_apply, subf_apply, broadcast_apply, shapeCast_self, Ideal.ofBits_def, Ideal.ofBits_zero_f32, zero_sub]

/-! ## The stored block's entry -/

/-- Entry `(p, q)` of the stored block is the specification's entry of row `p` of the input block, row `q` of the
    centre block and entry `q` of the width block. -/
theorem pay_apply (xb : Vec Ideal S1024x1024 .f32) (cb : Vec Ideal S512x1024 .f32) (bb : Vec Ideal S1x512 .f32)
    (p : Fin 1024) (q : Fin 512) :
    k0_pay1 (F := Ideal) xb cb bb (ix2 p q)
      = Cert.Rbf.entry (Cert.Rbf.sqNorm xb p) (Cert.Rbf.sqNorm cb q) (Cert.Rbf.inner xb cb p q) (-(bb (ix2 (0 : Fin 1) q))) := by
  unfold k0_pay1
  -- the pointwise operations, pushed to the entry
  simp only [exp, sqrt, mulf_apply, subf_apply, addf_apply, maximumf_apply, broadcast_apply, matmul]
  -- the four ingredients
  rw [xsq_apply, csq_apply, cross_apply, negWidth_apply]
  simp only [Ideal.exp_def, Ideal.sqrt_def, Ideal.ofBits_def, Cert.Rbf.entry]

end Cert.Rbf.Body

end
-- ==== Proof.Blocks.lean ====
/-
  From the blocks to the whole array.

  The grid is 16 × 8. At point `(I, J)` the body sees rows `1024·I … 1024·I + 1023` of the inputs (all 1024 features), rows
  `512·J … 512·J + 511` of the centres (all 1024 features) and entries `512·J … 512·J + 511` of the width row, and
  writes back block `(I, J)` of the result: rows `1024·I + p`, columns `512·J + q`. Every feature of a row is inside
  the block, so the three sums of an entry are the whole sums of the specification: entry `(p, q)` of the stored block is
  entry `(1024·I + p, 512·J + q)` of the specification. The 128 blocks tile the `[16384, 4096]` result (the point that
  covers `(n, o)` is `(n / 1024, o / 512)`), so after the run the result array IS the specification.

  The width row the body sees is the width vector `[4096]` recast as `[1, 4096]` before the launch: its entry `(0, o)`
  is `β o`.
-/
import proofs.«113604_j56298431316600_1_alg».proof.Proof.Gen.KernelIdeal.Value
import proofs.«113604_j56298431316600_1_alg».proof.Proof.Payload
import Idealize.ShloMosaic.Lib.Pipeline.Value
import Idealize.ShloMosaic.Lib.ValueLayout
import Idealize.ShloMosaic.Lib.StableHlo.Run

noncomputable section

namespace Cert.Rbf.Blocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- At every grid point: the input block sits at the output block's row index and takes every feature; the centre
    block sits at the output block's COLUMN index and takes every feature; the width block sits in the one row at the
    output block's column index; and the output's block indices stay inside the 16 × 8 grid. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 16 ∧ win0_3.index t (1 : Fin 2) < 8 :=
  (by decide +kernel : ∀ t : Fin grid0.N, _)

/-- Every block of the 16 × 8 tiling is some point's. -/
theorem idx_onto : ∀ (I : Fin 16) (J : Fin 8), ∃ t : Fin cfg0.N, win0_3.index t = ![I.val, J.val] :=
  (by decide +kernel : ∀ (I : Fin 16) (J : Fin 8), ∃ t : Fin grid0.N, win0_3.index t = ![I.val, J.val])

/-! ## The three input blocks, at their literal types, read off the arguments -/

/-- The input block at point `t`. -/
abbrev xblk (c : Dev nD) (t : Fin cfg0.N) : Vec Ideal S1024x1024 .f32 := iblk m c 0 t
/-- The centre block at point `t`. -/
abbrev cblk (c : Dev nD) (t : Fin cfg0.N) : Vec Ideal S512x1024 .f32 := iblk m c 1 t
/-- The width block at point `t`. -/
abbrev bblk (c : Dev nD) (t : Fin cfg0.N) : Vec Ideal S1x512 .f32 := iblk m c 2 t

/-- The inputs, the centres and the widths as launched. -/
abbrev xarr (c : Dev nD) : FVec Ideal S16384x1024 .f32 := m ((c : Thread nD τ).loc main_arg0)
abbrev carr (c : Dev nD) : FVec Ideal S4096x1024 .f32 := m ((c : Thread nD τ).loc main_arg1)
abbrev barr (c : Dev nD) : FVec Ideal S4096 .f32 := m ((c : Thread nD τ).loc main_arg2)

/-- The width row as the region finds it: the width vector recast as one row. -/
theorem widthRow (c : Dev nD) :
    (V m c main_v0 : S1x4096.Idx → EReal) = shapeCast S1x4096 (barr m c) shapeCasts_S4096_S1x4096 := by
  dsimp only [V, hostOps0]; after_results; rfl

/-- Entry `(p, k)` of the input block is entry `(n, k)` of the inputs, `n` the block's row offset plus `p`. -/
theorem xblk_apply (c : Dev nD) (t : Fin cfg0.N) (p k : Fin 1024) (n : Fin 16384)
    (hn : n.val = win0_3.index t (0 : Fin 2) * 1024 + p.val) :
    xblk m c t (ix2 p k) = xarr m c (ix2 n k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = n.val; rw [hn, e0]; omega
  | ⟨1, _⟩ => show win0_0.index t (1 : Fin 2) * 1024 + 1 * k.val = k.val; rw [e1]; omega

/-- Entry `(q, k)` of the centre block is entry `(o, k)` of the centres, `o` the block's column offset plus `q`. -/
theorem cblk_apply (c : Dev nD) (t : Fin cfg0.N) (q : Fin 512) (k : Fin 1024) (o : Fin 4096)
    (ho : o.val = win0_3.index t (1 : Fin 2) * 512 + q.val) :
    cblk m c t (ix2 q k) = carr m c (ix2 o k) := by
  obtain ⟨-, -, e2, e3, -⟩ := idx_facts t
  show V m c main_arg1 (((cfg0.win 1).blk t).view.emb (ix2 q k)) = _
  rw [V_main_arg1]
  refine congrArg (m ((c : Thread nD τ).loc main_arg1)) (funext fun a => Fin.ext ?_)
  match a with
  | ⟨0, _⟩ => show win0_1.index t (0 : Fin 2) * 512 + 1 * q.val = o.val; rw [ho, e2]; omega
  | ⟨1, _⟩ => show win0_1.index t (1 : Fin 2) * 1024 + 1 * k.val = k.val; rw [e3]; omega

/-- Entry `(0, q)` of the width block is the width of centre `o`. -/
theorem bblk_apply (c : Dev nD) (t : Fin cfg0.N) (q : Fin 512) (o : Fin 4096)
    (ho : o.val = win0_3.index t (1 : Fin 2) * 512 + q.val) :
    bblk m c t (ix2 (0 : Fin 1) q) = barr m c (ix1 o) := by
  obtain ⟨-, -, -, -, e4, e5, -⟩ := idx_facts t
  show V m c main_v0 (((cfg0.win 2).blk t).view.emb (ix2 (0 : Fin 1) q)) = _
  rw [widthRow]
  have he : ((cfg0.win 2).blk t).view.emb (ix2 (0 : Fin 1) q) = ix2 (0 : Fin 1) o := funext fun a => Fin.ext (by
    match a with
    | ⟨0, _⟩ => show win0_2.index t (0 : Fin 2) * 1 + 1 * 0 = 0; rw [e4]
    | ⟨1, _⟩ => show win0_2.index t (1 : Fin 2) * 512 + 1 * q.val = o.val; rw [ho, e5]; omega)
  rw [he, shapeCast_a_1a_apply]

/-! ## The three sums of an entry are whole sums -/

theorem sqNorm_xblk (c : Dev nD) (t : Fin cfg0.N) (p : Fin 1024) (n : Fin 16384)
    (hn : n.val = win0_3.index t (0 : Fin 2) * 1024 + p.val) :
    Cert.Rbf.sqNorm (xblk m c t) p = Cert.Rbf.sqNorm (xarr m c) n :=
  Finset.sum_congr rfl fun k _ => by rw [xblk_apply m c t p k n hn]

theorem sqNorm_cblk (c : Dev nD) (t : Fin cfg0.N) (q : Fin 512) (o : Fin 4096)
    (ho : o.val = win0_3.index t (1 : Fin 2) * 512 + q.val) :
    Cert.Rbf.sqNorm (cblk m c t) q = Cert.Rbf.sqNorm (carr m c) o :=
  Finset.sum_congr rfl fun k _ => by rw [cblk_apply m c t q k o ho]

theorem inner_blk (c : Dev nD) (t : Fin cfg0.N) (p : Fin 1024) (q : Fin 512) (n : Fin 16384) (o : Fin 4096)
    (hn : n.val = win0_3.index t (0 : Fin 2) * 1024 + p.val) (ho : o.val = win0_3.index t (1 : Fin 2) * 512 + q.val) :
    Cert.Rbf.inner (xblk m c t) (cblk m c t) p q = Cert.Rbf.inner (xarr m c) (carr m c) n o :=
  Finset.sum_congr rfl fun k _ => by rw [xblk_apply m c t p k n hn, cblk_apply m c t q k o ho]

/-! ## What a point writes back -/

/-- The result as one function of the arguments. -/
abbrev result (c : Dev nD) : FVec Ideal S16384x4096 .f32 := Cert.Rbf.rbf (xarr m c) (carr m c) (barr m c)

/-- Entry `j` of the block stored at point `t` is the specification at the array index the block puts `j` at. -/
theorem stored_apply (c : Dev nD) (t : Fin cfg0.N) (j : S1024x512.Idx) :
    k0_pay1 (F := Ideal) (xblk m c t) (cblk m c t) (bblk m c t) j = result m c (((cfg0.win 3).blk t).view.emb j) := by
  obtain ⟨p, q, rfl⟩ : ∃ (p : Fin 1024) (q : Fin 512), j = ix2 p q := ⟨j 0, j 1, eq_ix2 j⟩
  obtain ⟨-, -, -, -, -, -, b0, b1⟩ := idx_facts t
  have hp := p.isLt
  have hq := q.isLt
  obtain ⟨n, hn⟩ : ∃ n : Fin 16384, n.val = win0_3.index t (0 : Fin 2) * 1024 + p.val := ⟨⟨_, by omega⟩, rfl⟩
  obtain ⟨o, ho⟩ : ∃ o : Fin 4096, o.val = win0_3.index t (1 : Fin 2) * 512 + q.val := ⟨⟨_, by omega⟩, rfl⟩
  have he : ((cfg0.win 3).blk t).view.emb (ix2 p q) = ix2 n o := funext fun a => Fin.ext (by
    match a with
    | ⟨0, _⟩ => show win0_3.index t (0 : Fin 2) * 1024 + 1 * p.val = n.val; rw [hn]; omega
    | ⟨1, _⟩ => show win0_3.index t (1 : Fin 2) * 512 + 1 * q.val = o.val; rw [ho]; omega)
  rw [he]
  show _ = Cert.Rbf.rbf (xarr m c) (carr m c) (barr m c) (ix2 n o)
  rw [Cert.Rbf.rbf_apply, Cert.Rbf.Body.pay_apply, sqNorm_xblk m c t p n hn, sqNorm_cblk m c t q o ho,
    inner_blk m c t p q n o hn ho, bblk_apply m c t q o ho]

/-- WHAT POINT `t` WRITES BACK is block `t` of the specification. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz]
  simp only [View.ld_unit_zero (S := S1024x1024) hz, View.ld_unit_zero (S := S512x1024) hz, View.ld_unit_zero (S := S1x512) hz]
  funext j
  exact stored_apply m c t j

/-! ## The blocks tile the array -/

/-- An index of the result is in point `t`'s block iff each coordinate is in the block's range on its axis. -/
theorem mem_blk (t : Fin cfg0.N) (i : S16384x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- Every index of the result is in the block of the point `(n / 1024, o / 512)`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE RESULT ARRAY after the run is the specification of the arguments. -/
theorem final (c : Dev nD) : (dats m 0 c).arrAt 3 cfg0.N = result m c :=
  (dats m 0 c).arrAt_eq_of_cover 3 (result m c) (fun t _ => flushed_eq m c t) cover

/-! ## The kernel's run, read -/

/-- Every weakly fair execution of the kernel program terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Rbf.Blocks

end
-- ==== Proof.lean ====
/-
  A radial-basis layer: the tiled kernel equals its plain reference over the extended reals.

  Both programs compute, for inputs `x : [16384, 1024]`, centres `c : [4096, 1024]` and widths `β : [4096]`,

      out (n, o) = exp ( (−β o) · √ max ( (‖x n‖² + ‖c o‖²) − 2 · ⟨x n, c o⟩ , 0 ) ),

  the squared distance `‖x n − c o‖²` by the expansion of the square, clamped at zero before the root
  (Proof/Spec.lean states this function once).

  * The reference does it on whole arrays: two reductions along the feature axis, one matrix product of `x` with the
    transposed centres, then pointwise operations (Proof/RefIsSpec.lean, over the generated reading of its run).
  * The kernel does it block by block over a 16 × 8 grid: a block of 1024 inputs against a block of 512 centres, every
    feature of both inside the block, so each of the three sums of an entry is already the whole sum; its matrix
    product contracts the feature axis of both blocks, and narrowing its operands to a shorter float format is the
    identity on the extended reals (Proof/Payload.lean: one stored entry; Proof/Blocks.lean: the blocks tile the result).

  The two spell the same operations in the same order — only `0 − β` against `−β`, a zero the reductions start from,
  and where the transposition sits differ — so no finiteness of the inputs is used: the equality holds on all extended
  reals, and the precondition is never opened. The idealization rewrote nothing, so `preserves` has nothing to state.
  The three frames are the generated ones (the reference's is its generated run with the result dropped).
-/
import proofs.«113604_j56298431316600_1_alg».proof.Defs
import proofs.«113604_j56298431316600_1_alg».proof.Proof.Gen.Kernel
import proofs.«113604_j56298431316600_1_alg».proof.Proof.Gen.Kernel.Skeleton
import proofs.«113604_j56298431316600_1_alg».proof.Proof.Gen.Kernel.Launch
import proofs.«113604_j56298431316600_1_alg».proof.Proof.Gen.Kernel.Points
import proofs.«113604_j56298431316600_1_alg».proof.Proof.Gen.Kernel.Frame
import proofs.«113604_j56298431316600_1_alg».proof.Proof.Gen.KernelIdeal
import proofs.«113604_j56298431316600_1_alg».proof.Proof.Gen.KernelIdeal.Skeleton
import proofs.«113604_j56298431316600_1_alg».proof.Proof.Gen.KernelIdeal.Launch
import proofs.«113604_j56298431316600_1_alg».proof.Proof.Gen.KernelIdeal.Points
import proofs.«113604_j56298431316600_1_alg».proof.Proof.Gen.KernelIdeal.Frame
import proofs.«113604_j56298431316600_1_alg».proof.Proof.Gen.ReferenceIdeal
import proofs.«113604_j56298431316600_1_alg».proof.Proof.Gen.Pre_finite_inputs
import proofs.«113604_j56298431316600_1_alg».proof.Proof.Gen.KernelIdeal.Value
import proofs.«113604_j56298431316600_1_alg».proof.Proof.Gen.ReferenceIdeal.Run
import proofs.«113604_j56298431316600_1_alg».proof.Proof.Gen.ReferenceIdeal.Read
import proofs.«113604_j56298431316600_1_alg».proof.Proof.RefIsSpec
import proofs.«113604_j56298431316600_1_alg».proof.Proof.Blocks
import Idealize.ShloMosaic.Adequacy
import Idealize.ShloMosaic.Init

noncomputable section

namespace Cert.Proof

open Idealize.ShloMosaic Idealize.SL.Sem

/-- The word-level kernel runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both programs end with the result array at the specification of
    those arguments: the kernel's by its blocks, the reference's by its run read one operation at a time. -/
theorem algebraic : Cert.algebraic_KernelIdeal_ReferenceIdeal := by
  intro m ρ m' ρ' _ hagree
  refine ⟨fun c => Cert.Rbf.Blocks.result m c, Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Rbf.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
